-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S1048576 : Shape := ⟨1, ![1048576]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S1048576 : S_.BroadcastsInDim S1048576 (![] : Fin 0 → Fin S1048576.rank)
  reducesTo_S1048576_S_d0 : S1048576.ReducesTo [0] S_

variable [Facts]

def fn {F : FTy → Type} [FloatOps F] (main_arg0 : FVec F S1048576x128 .f32) (main_arg1 : FVec F S1048576x128 .f32) (main_arg2 : FVec F S1048576 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S1048576x128 .f32 := Host.absf main_arg1
  let main_cst_0 : FVec F S_ .f32 := constant S_ .f32 0x7F800000#32
  let main_v5 : FVec F S1048576x128 .f32 := broadcastInDim S1048576x128 ![] bcast_S_S1048576x128 main_cst_0
  let main_v6 : IVec S1048576x128 1 := cmpf .olt main_v4 main_v5
  let main_c_1 : IVec S_ 1 := constantI S_ 1 1#1
  let main_v7 : IVec S_ 1 := (fun x v => Host.reduce IntOp.andi x v reducesTo_S1048576x128_S_d0_1 h_S_) main_v6 main_c_1
  let main_v8 : IVec S_ 1 := andi main_v3 main_v7
  let main_v9 : FVec F S1048576 .f32 := Host.absf main_arg2
  let main_cst_2 : FVec F S_ .f32 := constant S_ .f32 0x7F800000#32
  let main_v10 : FVec F S1048576 .f32 := broadcastInDim S1048576 ![] bcast_S_S1048576 main_cst_2
  let main_v11 : IVec S1048576 1 := cmpf .olt main_v9 main_v10
  let main_c_3 : IVec S_ 1 := constantI S_ 1 1#1
  let main_v12 : IVec S_ 1 := (fun x v => Host.reduce IntOp.andi x v reducesTo_S1048576_S_d0 h_S_) main_v11 main_c_3
  let main_v13 : IVec S_ 1 := andi main_v8 main_v12
  main_v13
-- ==== Kernel.lean ====
abbrev S1048576x128 : Shape := ⟨2, ![1048576, 128]⟩
abbrev S1048576 : Shape := ⟨1, ![1048576]⟩
abbrev S1048576x1 : Shape := ⟨2, ![1048576, 1]⟩
abbrev S2x1x128 : Shape := ⟨3, ![2, 1, 128]⟩
abbrev S8192x128 : Shape := ⟨2, ![8192, 128]⟩
abbrev S8192x1 : Shape := ⟨2, ![8192, 1]⟩
abbrev S1x1x128 : Shape := ⟨3, ![1, 1, 128]⟩
abbrev S1x128 : Shape := ⟨2, ![1, 128]⟩
abbrev S8192 : Shape := ⟨1, ![8192]⟩
abbrev S1x8192x1 : Shape := ⟨3, ![1, 8192, 1]⟩
abbrev S1 : Shape := ⟨1, ![1]⟩
abbrev S1x1x1 : Shape := ⟨3, ![1, 1, 1]⟩
abbrev S1x1 : Shape := ⟨2, ![1, 1]⟩
abbrev S2x1x1 : Shape := ⟨3, ![2, 1, 1]⟩
abbrev S2 : Shape := ⟨1, ![2]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1048576, .f32⟩
  | .hbm, ⟨3, _⟩ => ⟨S1048576x1, .f32⟩
  | .hbm, ⟨4, _⟩ => ⟨S2x1x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x1, .f32⟩
  | .local _ .vmem, ⟨5, _⟩ => ⟨S8192x1, .f32⟩
  | .local _ .vmem, ⟨6, _⟩ => ⟨S1x1x128, .f32⟩
  | .local _ .vmem, ⟨7, _⟩ => ⟨S1x1x128, .f32⟩
  | .local _ .vmem, ⟨8, _⟩ => ⟨S1x128, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v38 : BitVec 1 := Scalar.cmpi .eq arg1 c63_i32
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8192x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S1048576_S1048576x1 : S1048576.ShapeCasts S1048576x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8192x128_S8192x128_0_0 : ∀ a, (![0, 0] : Fin 2 → Nat) a + S8192x128.size a ≤ S8192x128.size a
  h_S8192x128 : 0 < S8192x128.numel
  reduces_S8192x128_S8192 : S8192x128.Reduces [1] S8192
  shapeCasts_S8192_S8192x1 : S8192.ShapeCasts S8192x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  shapeCasts_S8192x1_S1x8192x1 : S8192x1.ShapeCasts S1x8192x1
  reduces_S1x8192x1_S1 : S1x8192x1.Reduces [1, 2] S1
  shapeCasts_S1_S1x1x1 : S1.ShapeCasts S1x1x1
  inpos_S1x1x1_p0_0_0 : ∀ a, (![0, 0, 0] : Fin 3 → Nat) a < S1x1x1.size a
  iota_S1x128_d1_w32 : S1x128.Iotas .tc 32 [1]
  reduces_S1x128_S1 : S1x128.Reduces [1] S1
  shapeCasts_S1_S1x1 : S1.ShapeCasts S1x1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  iota_S1x1x128_d2_w32 : S1x1x128.Iotas .tc 32 [2]
  inb_S1x1x128_S1x1x128_0_0_0 : ∀ a, (![0, 0, 0] : Fin 3 → Nat) a + S1x1x128.size a ≤ S1x1x128.size a
  h_S1x1x128 : 0 < S1x1x128.numel
  slices_S2x1x128_S2x1x1_0_0_0 : S2x1x128.Slices ![0, 0, 0] S2x1x1
  shapeCasts_S2x1x1_S2 : S2x1x1.ShapeCasts S2
  reducesTo_S2_S_d0 : S2.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S1048576x128.size a
  hwx0_0 : ∀ i : grid0.Coords, EltTy.bits .f32 = 32 ∨ (Rect.block (s := S1048576x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S1048576x128.size a
  hwx0_1 : ∀ i : grid0.Coords, EltTy.bits .f32 = 32 ∨ (Rect.block (s := S1048576x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x1.size a ≤ S1048576x1.size a
  hwx0_2 : ∀ i : grid0.Coords, EltTy.bits .f32 = 32 ∨ (Rect.block (s := S1048576x1) S8192x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S2x1x128.size a
  hwx0_3 : ∀ i : grid0.Coords, EltTy.bits .f32 = 32 ∨ (Rect.block (s := S2x1x128) S1x1x128.size (cc0_transform_3 i) (hinb0_3 i)).WholeWords (EltTy.packing .f32)

variable [Facts₀]

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1048576x128 : Shape := ⟨2, ![1048576, 128]⟩
abbrev S1048576 : Shape := ⟨1, ![1048576]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S1048576x128, .f32⟩
  | .hbm, ⟨2, _⟩ => ⟨S1048576, .f32⟩
  | .hbm, ⟨3, _⟩ => ⟨S1048576x128, .f32⟩
  | .hbm, ⟨4, _⟩ => ⟨S1048576x128, .f32⟩
  | .hbm, ⟨5, _⟩ => ⟨S_, .f32⟩
  | .hbm, ⟨6, _⟩ => ⟨S1048576, .f32⟩
  | .hbm, ⟨7, _⟩ => ⟨S1048576, .f32⟩
  | .hbm, ⟨8, _⟩ => ⟨S1048576, .f32⟩
  | .hbm, ⟨9, _⟩ => ⟨S_, .f32⟩
  | .hbm, ⟨10, _⟩ => ⟨S1048576, .f32⟩
  | .hbm, ⟨11, _⟩ => ⟨S1048576, .f32⟩
  | .hbm, ⟨12, _⟩ => ⟨S_, .f32⟩
  | .hbm, ⟨13, _⟩ => ⟨S1048576, .f32⟩
  | .hbm, ⟨14, _⟩ => ⟨S1048576, .f32⟩
  | .hbm, ⟨15, _⟩ => ⟨S_, .f32⟩
  | .hbm, ⟨16, _⟩ => ⟨S1048576, .f32⟩
  | .hbm, ⟨17, _⟩ => ⟨S1048576, .f32⟩
  | .hbm, ⟨18, _⟩ => ⟨S_, .f32⟩
  | .hbm, ⟨19, _⟩ => ⟨S1048576, .f32⟩
  | .hbm, ⟨20, _⟩ => ⟨S1048576, .f32⟩
  | .hbm, ⟨21, _⟩ => ⟨S_, .f32⟩
  | .hbm, ⟨22, _⟩ => ⟨S1048576, .f32⟩
  | .hbm, ⟨23, _⟩ => ⟨S1048576, .i1⟩
  | .hbm, ⟨24, _⟩ => ⟨S1048576, .f32⟩
  | .hbm, ⟨25, _⟩ => ⟨S_, .f32⟩
  | .hbm, ⟨26, _⟩ => ⟨S_, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_call0_cst : Ref sig .tc := ⟨.hbm, 12, rfl⟩
abbrev main_call0_v0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_call1_cst : Ref sig .tc := ⟨.hbm, 18, rfl⟩
abbrev main_call1_v0 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  reducesTo_S1048576x128_S1048576_d1 : S1048576x128.ReducesTo [1] S1048576
  h_S_ : 0 < S_.numel
  bcast_S_S1048576 : S_.BroadcastsInDim S1048576 (![] : Fin 0 → Fin S1048576.rank)
  reducesTo_S1048576_S_d0 : S1048576.ReducesTo [0] S_

variable [Facts₀]

class Facts : Prop extends Facts₀ where

variable [Facts]
-- ==== Proof.KernelPieces.lean ====
/-
  What one step of the kernel body leaves behind, read off the pieces its stores wrote.

  The body keeps a 128-lane accumulator row in scratch. At a core's first step it stores the zero row and then,
  reading it back, stores  zero row + onehot(step)·(block sum);  at every other step it stores
  previous row + onehot(step)·(block sum);  at a core's last step it also stores into the output block the lane-0
  select of the lane sum of the row it has just written. Each store covers its whole buffer and each load reads a
  whole buffer, so the contents after the step are the last store's payload of the contents before it.
-/
import proofs.«406493_j19825569038543_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

/-- The accumulator row after a step, from the row before it and the step's three input blocks. -/
abbrev stepRow (i : grid0.Coords) (x0 x1 : Vec F S8192x128 .f32) (x2 : Vec F S8192x1 .f32) (acc : Vec F S1x128 .f32) :
    Vec F S1x128 .f32 := k0_pay1 (k0_pay4 i x0 x1 x2 acc)

/-- A core's FIRST step leaves the step row over the zero row. -/
theorem scratch_first (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x1 .f32) (harg4 : arg4.IsWhole) (arg5 : Memref sig .tc .vmem S1x1x128 .f32) (harg5 : arg5.IsWhole) (arg6 : Memref sig .tc .vmem S1x128 .f32) (harg6 : arg6.IsWhole) (hc0 : cond0_0 i) (hc1 : ¬cond0_1 i)
    (x0 x1 : Vec F S8192x128 .f32) (x2 : Vec F S8192x1 .f32) :
    sout0_A_0 c i arg2 harg2 arg3 harg3 arg4 harg4 arg5 harg5 arg6 harg6 hc0 hc1 x0 x1 x2 = stepRow i x0 x1 x2 k0_pay3 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x128) zero2]
  simp only [View.readAt_eq_ld, harg2.read_unread, harg3.read_unread, harg4.read_unread,
    View.ld_unit_zero (S := S8192x128) zero2, View.ld_unit_zero (S := S8192x1) zero2,
    View.readCov_unit_zero (S := S1x128) _ zero2]

/-- A MIDDLE step leaves the step row over the row the step before left. -/
theorem scratch_middle (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x1 .f32) (harg4 : arg4.IsWhole) (arg5 : Memref sig .tc .vmem S1x1x128 .f32) (harg5 : arg5.IsWhole) (arg6 : Memref sig .tc .vmem S1x128 .f32) (harg6 : arg6.IsWhole) (hc0 : ¬cond0_0 i) (hc1 : ¬cond0_1 i)
    (x0 x1 : Vec F S8192x128 .f32) (x2 : Vec F S8192x1 .f32) (acc : Vec F S1x128 .f32) :
    sout0_B_0 c i arg2 harg2 arg3 harg3 arg4 harg4 arg5 harg5 arg6 harg6 hc0 hc1 x0 x1 x2 acc = stepRow i x0 x1 x2 acc := by
  unfold sout0_B_0
  rw [View.read_writes_eq_canon _ _ _ (scover0_B_0 c i arg2 harg2 arg3 harg3 arg4 harg4 arg5 harg5 arg6 harg6 hc0 hc1 x0 x1 x2 acc)]
  unfold kernelRun0_B
  dsimp only
  sl_unfold_words
  rw [View.canon_unit_zero (S := S1x128) zero2]
  simp only [View.readAt_eq_ld, harg2.read_unread, harg3.read_unread, harg4.read_unread, harg6.read_unread,
    View.ld_unit_zero (S := S8192x128) zero2, View.ld_unit_zero (S := S8192x1) zero2, View.ld_unit_zero (S := S1x128) zero2]

/-- A core's LAST step leaves the same step row in the scratch, -/
theorem scratch_last (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x1 .f32) (harg4 : arg4.IsWhole) (arg5 : Memref sig .tc .vmem S1x1x128 .f32) (harg5 : arg5.IsWhole) (arg6 : Memref sig .tc .vmem S1x128 .f32) (harg6 : arg6.IsWhole) (hc0 : ¬cond0_0 i) (hc1 : cond0_1 i)
    (x0 x1 : Vec F S8192x128 .f32) (x2 : Vec F S8192x1 .f32) (acc : Vec F S1x128 .f32) :
    sout0_C_0 c i arg2 harg2 arg3 harg3 arg4 harg4 arg5 harg5 arg6 harg6 hc0 hc1 x0 x1 x2 acc = stepRow i x0 x1 x2 acc := by
  unfold sout0_C_0
  rw [View.read_writes_eq_canon _ _ _ (scover0_C_0 c i arg2 harg2 arg3 harg3 arg4 harg4 arg5 harg5 arg6 harg6 hc0 hc1 x0 x1 x2 acc)]
  unfold kernelRun0_C
  dsimp only
  sl_unfold_words
  rw [View.canon_unit_zero (S := S1x128) zero2]
  simp only [View.readAt_eq_ld, harg2.read_unread, harg3.read_unread, harg4.read_unread, harg6.read_unread,
    View.ld_unit_zero (S := S8192x128) zero2, View.ld_unit_zero (S := S8192x1) zero2, View.ld_unit_zero (S := S1x128) zero2]

/-- and, in the output block, the lane-0 select of that row's lane sum. -/
theorem out_last (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S8192x1 .f32) (harg4 : arg4.IsWhole) (arg5 : Memref sig .tc .vmem S1x1x128 .f32) (harg5 : arg5.IsWhole) (arg6 : Memref sig .tc .vmem S1x128 .f32) (harg6 : arg6.IsWhole) (hc0 : ¬cond0_0 i) (hc1 : cond0_1 i)
    (x0 x1 : Vec F S8192x128 .f32) (x2 : Vec F S8192x1 .f32) (acc : Vec F S1x128 .f32) :
    out0_C_3 c i arg2 harg2 arg3 harg3 arg4 harg4 arg5 harg5 arg6 harg6 hc0 hc1 x0 x1 x2 acc = k0_pay2 (stepRow i x0 x1 x2 acc) := by
  unfold out0_C_3
  rw [View.read_writes_eq_canon _ _ _ (cover0_C_3 c i arg2 harg2 arg3 harg3 arg4 harg4 arg5 harg5 arg6 harg6 hc0 hc1 x0 x1 x2 acc)]
  unfold kernelRun0_C
  dsimp only
  sl_unfold_words
  rw [View.canon_unit_zero (S := S1x1x128) zero3]
  simp only [View.readAt_eq_ld, harg2.read_unread, harg3.read_unread, harg4.read_unread, harg6.read_unread,
    View.ld_unit_zero (S := S8192x128) zero2, View.ld_unit_zero (S := S8192x1) zero2, View.ld_unit_zero (S := S1x128) zero2,
    View.readCov_unit_zero (S := S1x128) _ zero2]

end Cert.KernelIdeal.Pieces

end
-- ==== Proof.RowLaw.lean ====
/-
  The algebra both programs share, over the extended reals, with no program in sight.

  Per row, with t = tanh y (any extended real y: tanh sends -∞ to -1, +∞ to 1 and a real to a real strictly
  between), the kernel's signed form 1 + s·t with s = -1 or 1 equals the reference's clipped form max (1 ∓ t) 0,
  because |t| ≤ 1 keeps 1 - t and 1 + t at or above zero: the clip never bites.

  Over the rows, a sum over all 2·64·8192 rows is the triple sum over (core, step, row inside the block), and a sum
  over 128 lanes of which only the first 64 are not zero is the sum over those 64.
-/
import Idealize.ShloMosaic.PureOps.Ideal
import Idealize.ShloMosaic.PureOps.Ideal.Laws
import Idealize.ShloMosaic.PureOps.IdealRules
import Idealize.ShloMosaic.Lib.IdealHost
import Mathlib.Algebra.BigOperators.Fin
import Mathlib.Analysis.SpecialFunctions.Trigonometric.DerivHyp

noncomputable section

namespace Cert.RowLaw

open Idealize.ShloMosaic
open scoped BigOperators

/-- The f32 word of -1.0 denotes the extended real -1. -/
theorem ofBits_neg_one_f32 : Ideal.ofBits .f32 0xBF800000#32 = -1 :=
  IdealRules.sign_bit.ideal_negOnePat .f32

/-- tanh of any extended real is a real number between -1 and 1. -/
theorem tanh_real (y : EReal) : ∃ r : ℝ, Ideal.tanh y = (r : EReal) ∧ -1 ≤ r ∧ r ≤ 1 := by
  induction y using EReal.rec with
  | bot => refine ⟨-1, ?_, le_refl _, by norm_num⟩; rw [EReal.coe_neg, EReal.coe_one]; rfl
  | top => refine ⟨1, ?_, by norm_num, le_refl _⟩; rw [EReal.coe_one]; rfl
  | coe r => exact ⟨Real.tanh r, rfl, (Real.neg_one_lt_tanh r).le, (Real.tanh_lt_one r).le⟩

/-- For a real t ≤ 1: 1 + (-1)·t is 1 - t, which is not negative, so clipping it at zero changes nothing. -/
theorem minus_branch (r : ℝ) (h : r ≤ 1) : (1 : EReal) + (-1) * (r : EReal) = max ((1 : EReal) - (r : EReal)) 0 := by
  have e1 : (1 : EReal) + (-1) * (r : EReal) = ((1 - r : ℝ) : EReal) := by
    rw [show ((-1 : EReal)) = ((-1 : ℝ) : EReal) by rw [EReal.coe_neg, EReal.coe_one], ← EReal.coe_mul,
      ← EReal.coe_one, ← EReal.coe_add]
    congr 1; ring
  have e2 : (1 : EReal) - (r : EReal) = ((1 - r : ℝ) : EReal) := by
    rw [← EReal.coe_one, ← EReal.coe_sub]
  rw [e1, e2, max_eq_left (EReal.coe_nonneg.mpr (by linarith))]

/-- For a real t ≥ -1: 1 + 1·t is not negative, so clipping it at zero changes nothing. -/
theorem plus_branch (r : ℝ) (h : -1 ≤ r) : (1 : EReal) + 1 * (r : EReal) = max ((1 : EReal) + (r : EReal)) 0 := by
  have e2 : (1 : EReal) + (r : EReal) = ((1 + r : ℝ) : EReal) := by
    rw [← EReal.coe_one, ← EReal.coe_add]
  rw [one_mul, e2, max_eq_left (EReal.coe_nonneg.mpr (by linarith))]

/-- THE PER-ROW LAW. Whatever the compare bit b and whatever y: the signed form 1 + (b ? -1 : 1)·tanh y is the
    clipped form b ? max (1 - tanh y) 0 : max (1 + tanh y) 0. -/
theorem signed_eq_clipped (b : BitVec 1) (y : EReal) :
    (1 : EReal) + Scalar.select b (-1 : EReal) 1 * Ideal.tanh y
      = Scalar.select b (max (1 - Ideal.tanh y) 0) (max (1 + Ideal.tanh y) 0) := by
  obtain ⟨r, hr, h1, h2⟩ := tanh_real y
  rw [hr]
  unfold Scalar.select
  by_cases hb : b = 1
  · rw [if_pos hb, if_pos hb]; exact minus_branch r h2
  · rw [if_neg hb, if_neg hb]; exact plus_branch r h1

/-! ## Regrouping the sums -/

variable {M : Type*} [AddCommMonoid M]

/-- Row (core c, step j, r inside the block) of the 1048576 rows: block c·64 + j, 8192 rows a block. -/
def rowOf (c : Fin 2) (j : Fin 64) (r : Fin 8192) : Fin 1048576 :=
  ⟨(c.val * 64 + j.val) * 8192 + r.val, by have := c.isLt; have := j.isLt; have := r.isLt; omega⟩

/-- Every row is exactly one (core, step, inside) triple. -/
def rowEquiv : Fin 2 × Fin 64 × Fin 8192 ≃ Fin 1048576 where
  toFun p := rowOf p.1 p.2.1 p.2.2
  invFun R := (⟨R.val / 524288, by have := R.isLt; omega⟩, ⟨(R.val / 8192) % 64, by omega⟩, ⟨R.val % 8192, by omega⟩)
  left_inv p := by
    obtain ⟨c, j, r⟩ := p
    have := c.isLt; have := j.isLt; have := r.isLt
    refine Prod.ext (Fin.ext ?_) (Prod.ext (Fin.ext ?_) (Fin.ext ?_)) <;> simp only [rowOf] <;> omega
  right_inv R := by
    apply Fin.ext; have := R.isLt; simp only [rowOf]; omega

/-- So a sum over all rows is the triple sum over cores, steps and rows inside a block. -/
theorem sum_rows (g : Fin 1048576 → M) :
    ∑ R, g R = ∑ c : Fin 2, ∑ j : Fin 64, ∑ r : Fin 8192, g (rowOf c j r) := by
  rw [← Equiv.sum_comp rowEquiv g, Fintype.sum_prod_type]
  refine Finset.sum_congr rfl fun c _ => ?_
  rw [Fintype.sum_prod_type]
  rfl

/-- A sum over 128 lanes that vanish from lane 64 on is the sum over the first 64. -/
theorem sum_lanes (a : Fin 128 → M) (h : ∀ l : Fin 128, 64 ≤ l.val → a l = 0) :
    ∑ l, a l = ∑ j : Fin 64, a ⟨j.val, by have := j.isLt; omega⟩ := by
  have e := Fin.sum_univ_add (a := 64) (b := 64) (fun l : Fin (64 + 64) => a l)
  rw [show (∑ l, a l) = ∑ l : Fin (64 + 64), a l from rfl, e]
  rw [Finset.sum_eq_zero (s := Finset.univ) (f := fun i : Fin 64 => a (Fin.natAdd 64 i))
    (fun i _ => h _ (by simp [Fin.natAdd])), add_zero]
  rfl

end Cert.RowLaw

end
-- ==== Proof.RowSpec.lean ====
/-
  What both programs compute, as functions of the three argument arrays (extended reals), with no program in sight.

  Row R of the 1048576 rows contributes  err R = 1 + s·tanh √(Σₖ (S1[R,k] - S2[R,k])²),  s = -1 where score[R] ≥ c
  and 1 elsewhere (c the shared f32 threshold word). The answer is the sum of err over all rows. The kernel reaches it
  in three levels — 8192 rows a block (blockSum), 64 blocks a core (coreTotal), 2 cores — and leaves, per core, the
  core's total in lane 0 of a 128-lane row and zero in the other lanes (outArr).
-/
import proofs.«406493_j19825569038543_3_alg».proof.Proof.RowLaw
import Idealize.ShloMosaic.Lib.ValueIdx

noncomputable section

namespace Cert.RowSpec

open Idealize.ShloMosaic Idealize.ShloMosaic.ValueIdx Cert.RowLaw
open scoped BigOperators

/-- A [1048576, 128] array, a [1048576] array, the [2, 1, 128] array of per-core rows. -/
abbrev Mat : Type := (⟨2, ![1048576, 128]⟩ : Shape).Idx → EReal
abbrev Col : Type := (⟨1, ![1048576]⟩ : Shape).Idx → EReal
abbrev Out : Type := (⟨3, ![2, 1, 128]⟩ : Shape).Idx → EReal

/-- The threshold both programs compare the score with: the f32 word nearest 0.6. -/
abbrev thr : EReal := Ideal.ofBits .f32 0x3F19999A#32

/-- The squared distance of row R: Σₖ (S1[R,k] - S2[R,k])². -/
def sumsq (s1 s2 : Mat) (R : Fin 1048576) : EReal :=
  ∑ k : Fin 128, (s1 (ix2 R k) - s2 (ix2 R k)) * (s1 (ix2 R k) - s2 (ix2 R k))

/-- tanh of row R's distance. -/
def tdist (s1 s2 : Mat) (R : Fin 1048576) : EReal := Ideal.tanh (Ideal.sqrt (sumsq s1 s2 R))

/-- Row R's compare bit: score[R] ≥ threshold. -/
def bit (sc : Col) (R : Fin 1048576) : BitVec 1 := Ideal.cmp .oge (sc (ix1 R)) thr

/-- Row R's contribution, in the signed form. -/
def err (s1 s2 : Mat) (sc : Col) (R : Fin 1048576) : EReal :=
  1 + Scalar.select (bit sc R) (-1 : EReal) 1 * tdist s1 s2 R

/-- The same in the clipped form (the per-row law). -/
theorem err_eq_clipped (s1 s2 : Mat) (sc : Col) (R : Fin 1048576) :
    err s1 s2 sc R = Scalar.select (bit sc R) (max (1 - tdist s1 s2 R) 0) (max (1 + tdist s1 s2 R) 0) :=
  signed_eq_clipped _ _

/-- The answer: the sum over all rows. -/
def total (s1 s2 : Mat) (sc : Col) : EReal := ∑ R : Fin 1048576, err s1 s2 sc R

/-- One block's sum: the 8192 rows of block c·64 + j. -/
def blockSum (s1 s2 : Mat) (sc : Col) (c : Fin 2) (j : Fin 64) : EReal := ∑ r : Fin 8192, err s1 s2 sc (rowOf c j r)

/-- One core's total: its 64 blocks. -/
def coreTotal (s1 s2 : Mat) (sc : Col) (c : Fin 2) : EReal := ∑ j : Fin 64, blockSum s1 s2 sc c j

/-- The answer is the two cores' totals added. -/
theorem total_eq (s1 s2 : Mat) (sc : Col) : total s1 s2 sc = ∑ c : Fin 2, coreTotal s1 s2 sc c :=
  sum_rows _

/-- The per-core rows the kernel writes: core c's total in lane 0, zero in the other 127 lanes. -/
def outArr (s1 s2 : Mat) (sc : Col) : Out := fun y => if (y 2).val = 0 then coreTotal s1 s2 sc (y 0) else 0

/-- A sum over the indices of a rank-1 shape is the sum over its one coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := ix1, left_inv := fun i => (eq_ix1 i).symm, right_inv := fun _ => rfl }
  rw [← Equiv.sum_comp e.symm f]
  rfl

end Cert.RowSpec

end
-- ==== Proof.KernelPayload.lean ====
/-
  The body's arithmetic at the extended reals, read at an index.

  For one step's input blocks x0, x1 (8192 rows of 128) and x2 (8192 scores): row r of the block contributes
  berr r = 1 + s·tanh √(Σₖ (x0[r,k] - x1[r,k])²), s = -1 where x2[r] ≥ threshold and 1 elsewhere; the block's sum is
  bsum = Σᵣ berr r. The accumulator row after the step is, at lane l, the row before it plus bsum where l is the
  step's number and plus nothing elsewhere (the one-hot factor is the word compare of the lane number with the step
  number). The output block of a core's last step holds, at lane l, the row's lane sum where l = 0 and zero elsewhere.
-/
import proofs.«406493_j19825569038543_3_alg».proof.Proof.Gen.KernelIdeal.Skeleton
import proofs.«406493_j19825569038543_3_alg».proof.Proof.RowSpec
import Idealize.ShloMosaic.Lib.Pipeline.Value
import Idealize.ShloMosaic.Lib.ValueIdx
import Idealize.ShloMosaic.PureOps.Ideal.Laws

noncomputable section

open Idealize.ShloMosaic Idealize.ShloMosaic.ValueIdx Cert.RowSpec Cert.RowLaw
open scoped BigOperators

namespace Cert.KernelIdeal.Payload

open Cert.KernelIdeal Cert.KernelIdeal.Gen

/-- Row r's squared distance inside a block. -/
def bsumsq (x0 x1 : FVec Ideal S8192x128 .f32) (r : Fin 8192) : EReal :=
  ∑ k : Fin 128, (x0 (ix2 r k) - x1 (ix2 r k)) * (x0 (ix2 r k) - x1 (ix2 r k))

/-- Row r's contribution inside a block, in the signed form. -/
def berr (x0 x1 : FVec Ideal S8192x128 .f32) (x2 : FVec Ideal S8192x1 .f32) (r : Fin 8192) : EReal :=
  1 + Scalar.select (Ideal.cmp .oge (x2 (ix2 r 0)) thr) (-1 : EReal) 1 * Ideal.tanh (Ideal.sqrt (bsumsq x0 x1 r))

/-- The block's sum. -/
def bsum (x0 x1 : FVec Ideal S8192x128 .f32) (x2 : FVec Ideal S8192x1 .f32) : EReal := ∑ r : Fin 8192, berr x0 x1 x2 r

/-- The one-hot factor at lane l for step number n: one where the two 32-bit words agree, zero elsewhere. -/
def hot (l : Fin 128) (n : Nat) : EReal := Scalar.select (IntOp.cmpi .eq (BitVec.ofNat 32 l.val) (BitVec.ofNat 32 n)) (1 : EReal) 0

/-- The lane sum along a row of 128 read at row r is the sum over the lane. -/
theorem rowsum_apply (y : FVec Ideal S8192x128 .f32) (hφ : FKind.Formats .f32) (hacc : (0#32 : BitVec 32) = FKind.add.neutral .f32 hφ)
    (r : Fin 8192) :
    multiReduction .add [1] S8192 y 0#32 reduces_S8192x128_S8192 hφ hacc (ix1 r) = ∑ k : Fin 128, y (ix2 r k) := by
  rw [Ideal.multiReduction_add_single]
  refine Finset.sum_congr rfl fun k _ => congrArg y (funext fun a => Fin.ext ?_)
  match a with
  | ⟨0, _⟩ => rfl
  | ⟨1, _⟩ => rfl

/-- A sum over the indices of a [1, n, 1] shape is the sum over its middle coordinate. -/
theorem sum_mid {M : Type*} [AddCommMonoid M] {n : Nat} (f : (⟨3, ![1, n, 1]⟩ : Shape).Idx → M) :
    ∑ i, f i = ∑ r : Fin n, f (ix3 0 r 0) := by
  let e : (⟨3, ![1, n, 1]⟩ : Shape).Idx ≃ Fin n :=
    { toFun := fun i => i 1, invFun := fun r => ix3 0 r 0,
      left_inv := fun i => by
        funext a
        match a with
        | ⟨0, _⟩ => exact Fin.ext (by have := (i 0).isLt; show 0 = (i 0).val; simp at this; omega)
        | ⟨1, _⟩ => rfl
        | ⟨2, _⟩ => exact Fin.ext (by have := (i 2).isLt; show 0 = (i 2).val; simp at this; omega),
      right_inv := fun _ => rfl }
  rw [← Equiv.sum_comp e.symm f]
  rfl

/-- The column of per-row contributions the body builds, read at row r, is berr r. -/
theorem col_apply (x0 x1 : FVec Ideal S8192x128 .f32) (x2 : FVec Ideal S8192x1 .f32)
    (hφ : FKind.Formats .f32) (hacc : (0#32 : BitVec 32) = FKind.add.neutral .f32 hφ) (r : Fin 8192) :
    addf (broadcast S8192x1 (FloatOps.ofBits (F := Ideal) .f32 0x3F800000#32))
      (mulf
        (select (cmpf .oge (shapeCast S8192x1 x2 shapeCasts_S8192x1_S8192x1) (broadcast S8192x1 (FloatOps.ofBits .f32 0x3F19999A#32)))
          (broadcast S8192x1 (FloatOps.ofBits .f32 0xBF800000#32)) (broadcast S8192x1 (FloatOps.ofBits .f32 0x3F800000#32)))
        (tanh (sqrt (shapeCast S8192x1
          (multiReduction .add [1] S8192 (mulf (subf x0 x1) (subf x0 x1)) 0#32 reduces_S8192x128_S8192 hφ hacc)
          shapeCasts_S8192_S8192x1))))
      (ix2 r 0) = berr x0 x1 x2 r := by
  have e2 : shapeCast S8192x1
      (multiReduction .add [1] S8192 (mulf (subf x0 x1) (subf x0 x1)) 0#32 reduces_S8192x128_S8192 hφ hacc)
      shapeCasts_S8192_S8192x1 (ix2 r 0) = bsumsq x0 x1 r := by
    rw [shapeCast_apply _ _ (ix2 r 0) (ix1 r) (by rw [Shape.rowMajor_val_one, Shape.rowMajor_val_two]; simp), rowsum_apply]
    rfl
  simp only [addf, mulf, select, cmpf, tanh, sqrt, broadcast, shapeCast_self]
  rw [e2]
  unfold berr thr
  simp only [Ideal.ofBits_def, Ideal.ofBits_one_f32, ofBits_neg_one_f32, Ideal.cmpf_def, Ideal.tanh_def, Ideal.sqrt_def,
    Ideal.addf_def, Ideal.mulf_def]

/-- The block sum the body extracts: the [1, 8192, 1] view of the column, summed over its two long axes and read at
    its one position. -/
theorem blocksum_apply (y : FVec Ideal S8192x1 .f32) (hφ : FKind.Formats .f32) (hacc : (0#32 : BitVec 32) = FKind.add.neutral .f32 hφ) :
    extractAt ![0, 0, 0]
      (shapeCast S1x1x1 (multiReduction .add [1, 2] S1 (shapeCast S1x8192x1 y shapeCasts_S8192x1_S1x8192x1) 0#32
        reduces_S1x8192x1_S1 hφ hacc) shapeCasts_S1_S1x1x1) inpos_S1x1x1_p0_0_0
      = ∑ r : Fin 8192, y (ix2 r 0) := by
  unfold extractAt
  rw [shapeCast_apply _ _ _ (ix1 (0 : Fin 1)) (by rw [Shape.rowMajor_val_one, Shape.rowMajor_val_three]; simp),
    Ideal.multiReduction_add_total _ _ _ (fun b => by match b with | ⟨0, _⟩ => rfl), sum_mid]
  refine Finset.sum_congr rfl fun r _ => ?_
  exact shapeCast_apply _ _ (ix3 0 r 0) (ix2 r 0) (by rw [Shape.rowMajor_val_two, Shape.rowMajor_val_three]; simp)

/-- The column of per-row contributions, as the body builds it from the three input blocks. -/
def col (x0 x1 : FVec Ideal S8192x128 .f32) (x2 : FVec Ideal S8192x1 .f32) : FVec Ideal S8192x1 .f32 :=
  addf (broadcast S8192x1 (FloatOps.ofBits (F := Ideal) .f32 0x3F800000#32))
    (mulf
      (select (cmpf .oge (shapeCast S8192x1 x2 shapeCasts_S8192x1_S8192x1) (broadcast S8192x1 (FloatOps.ofBits .f32 0x3F19999A#32)))
        (broadcast S8192x1 (FloatOps.ofBits .f32 0xBF800000#32)) (broadcast S8192x1 (FloatOps.ofBits .f32 0x3F800000#32)))
      (tanh (sqrt (shapeCast S8192x1
        (multiReduction .add [1] S8192 (mulf (subf x0 x1) (subf x0 x1)) 0x00000000#32 reduces_S8192x128_S8192 (.inl rfl) rfl)
        shapeCasts_S8192_S8192x1))))

theorem col_row (x0 x1 : FVec Ideal S8192x128 .f32) (x2 : FVec Ideal S8192x1 .f32) (r : Fin 8192) :
    col x0 x1 x2 (ix2 r 0) = berr x0 x1 x2 r := col_apply x0 x1 x2 _ _ r

/-- The row written back is the row computed (a cast to the same shape). -/
theorem pay1_eq (v : FVec Ideal S1x128 .f32) : k0_pay1 (F := Ideal) v = v := shapeCast_self _ _

/-- The step's row, spelt out: the row before, plus the one-hot row times the block sum splat over the lanes. -/
theorem pay4_eq (i : grid0.Coords) (x0 x1 : FVec Ideal S8192x128 .f32) (x2 : FVec Ideal S8192x1 .f32) (acc : FVec Ideal S1x128 .f32) :
    k0_pay4 (F := Ideal) i x0 x1 x2 acc
      = addf acc (mulf
          (select (cmpi .eq (iota .tc S1x128 32 [1] iota_S1x128_d1_w32) (broadcast S1x128 (BitVec.ofNat 32 (i 1).val)))
            (broadcast S1x128 (FloatOps.ofBits (F := Ideal) .f32 0x3F800000#32)) (broadcast S1x128 (FloatOps.ofBits (F := Ideal) .f32 0x00000000#32)))
          (broadcast S1x128 (extractAt ![0, 0, 0]
            (shapeCast S1x1x1 (multiReduction .add [1, 2] S1 (shapeCast S1x8192x1 (col x0 x1 x2) shapeCasts_S8192x1_S1x8192x1) 0x00000000#32
              reduces_S1x8192x1_S1 (.inl rfl) rfl) shapeCasts_S1_S1x1x1) inpos_S1x1x1_p0_0_0))) := rfl

/-- THE STEP, at lane l: the row before plus the one-hot factor times the block sum. -/
theorem stepRow_apply (i : grid0.Coords) (x0 x1 : FVec Ideal S8192x128 .f32) (x2 : FVec Ideal S8192x1 .f32)
    (acc : FVec Ideal S1x128 .f32) (l : Fin 128) :
    k0_pay1 (F := Ideal) (k0_pay4 i x0 x1 x2 acc) (ix2 0 l) = acc (ix2 0 l) + hot l (i 1).val * bsum x0 x1 x2 := by
  have hb := blocksum_apply (col x0 x1 x2) (.inl rfl) rfl
  rw [pay1_eq, pay4_eq, hb]
  simp only [addf, mulf, select, cmpi, broadcast]
  rw [iota_single_apply]
  unfold hot bsum
  simp only [col_row, Ideal.ofBits_def, Ideal.ofBits_one_f32, Ideal.ofBits_zero_f32, Ideal.addf_def, Ideal.mulf_def]

/-- THE LAST STEP'S OUTPUT BLOCK, at lane l: the row's lane sum at lane 0, zero elsewhere. -/
theorem outRow_apply (v : FVec Ideal S1x128 .f32) (l : Fin 128) :
    k0_pay2 (F := Ideal) v (ix3 0 0 l) = if l.val = 0 then ∑ j : Fin 128, v (ix2 0 j) else 0 := by
  have e : k0_pay2 (F := Ideal) v
      = select (cmpi .eq (iota .tc S1x1x128 32 [2] iota_S1x1x128_d2_w32) (broadcast S1x1x128 0#32))
          (broadcastTo S1x1x128
            (shapeCast S1x1x1 (shapeCast S1x1x1 (shapeCast S1x1
              (multiReduction .add [1] S1 v 0x00000000#32 reduces_S1x128_S1 (.inl rfl) rfl) shapeCasts_S1_S1x1)
              shapeCasts_S1x1_S1x1x1) shapeCasts_S1x1x1_S1x1x1) broadcasts_S1x1x1_S1x1x128)
          (broadcast S1x1x128 (FloatOps.ofBits (F := Ideal) .f32 0x00000000#32)) := rfl
  rw [e]
  simp only [select, cmpi, broadcast]
  rw [iota_single_apply, shapeCast_self,
    broadcastTo_apply _ _ (ix3 0 0 l) (ix3 0 0 0) (fun a => by match a with | ⟨0, _⟩ => rfl | ⟨1, _⟩ => rfl | ⟨2, _⟩ => rfl),
    shapeCast_apply _ _ (ix3 0 0 0) (ix2 0 0) (by rw [Shape.rowMajor_val_two, Shape.rowMajor_val_three]; simp),
    shapeCast_apply _ _ (ix2 0 0) (ix1 0) (by rw [Shape.rowMajor_val_one, Shape.rowMajor_val_two]; simp)]
  have hm := Ideal.multiReduction_add_single v 0x00000000#32 reduces_S1x128_S1 (.inl rfl) rfl (ix1 0)
  rw [hm]
  have hs : (∑ k : Fin (S1x128.size 1), v (reduces_S1x128_S1.lift (ix1 0) k)) = ∑ j : Fin 128, v (ix2 0 j) :=
    Finset.sum_congr rfl fun k _ => congrArg v (funext fun a => Fin.ext (by match a with | ⟨0, _⟩ => rfl | ⟨1, _⟩ => rfl))
  rw [hs]
  by_cases hl : l.val = 0
  · rw [if_pos hl]
    have : IntOp.cmpi .eq (BitVec.ofNat 32 ((ix3 (0 : Fin 1) (0 : Fin 1) l : S1x1x128.Idx) 2).val) 0#32 = 1#1 := by
      show IntOp.cmpi .eq (BitVec.ofNat 32 l.val) 0#32 = 1#1
      rw [hl]; rfl
    rw [this]; rfl
  · rw [if_neg hl]
    have : IntOp.cmpi .eq (BitVec.ofNat 32 ((ix3 (0 : Fin 1) (0 : Fin 1) l : S1x1x128.Idx) 2).val) 0#32 = 0#1 := by
      show IntOp.cmpi .eq (BitVec.ofNat 32 l.val) 0#32 = 0#1
      have := l.isLt
      simp only [IntOp.cmpi]
      have hne : (BitVec.ofNat 32 l.val == 0#32) = false := by
        rw [beq_eq_false_iff_ne]; intro h
        have := congrArg BitVec.toNat h
        simp only [BitVec.toNat_ofNat, BitVec.toNat_zero] at this
        omega
      rw [hne]; rfl
    rw [this]
    show (Ideal.ofBits .f32 0x00000000#32 : EReal) = 0
    exact Ideal.ofBits_zero_f32

end Cert.KernelIdeal.Payload

end
-- ==== Proof.KernelBlocks.lean ====
/-
  The kernel's input blocks, read from the argument arrays.

  Grid point t (of 128: core t / 64, step t % 64) stages rows t·8192 … t·8192 + 8191 of S1 and of S2 and the same
  rows of the score column (the score array viewed [1048576, 1]: the host's reshape before the call). So row r of the
  point's blocks is row t·8192 + r of the arrays, the block's per-row contribution is the specification's err there,
  and the block's sum is the specification's blockSum of (core, step).
-/
import proofs.«406493_j19825569038543_3_alg».proof.Proof.Gen.KernelIdeal.Frame
import proofs.«406493_j19825569038543_3_alg».proof.Proof.KernelPayload
import Idealize.ShloMosaic.Lib.StableHlo.Run

noncomputable section

open Idealize.ShloMosaic Idealize.ShloMosaic.TcCoe Idealize.SL.Sem Idealize.ShloMosaic.ValueIdx
open Cert.RowSpec Cert.RowLaw
open scoped BigOperators

namespace Cert.KernelIdeal.Blocks

open Cert.KernelIdeal Cert.KernelIdeal.Gen Cert.KernelIdeal.Payload

variable (m : (ℓ : Loc nD τ sig) → Buf (Elt Ideal) ℓ)

/-- The three argument arrays on core c. -/
abbrev arr0 (c : Dev nD) : Mat := m ((c : Thread nD τ).loc main_arg0)
abbrev arr1 (c : Dev nD) : Mat := m ((c : Thread nD τ).loc main_arg1)
abbrev arr2 (c : Dev nD) : Col := m ((c : Thread nD τ).loc main_arg2)

/-- The three input blocks at grid point t. -/
abbrev blk0 (c : Dev nD) (t : Fin cfg0.N) : FVec Ideal S8192x128 .f32 := iblk m c 0 t
abbrev blk1 (c : Dev nD) (t : Fin cfg0.N) : FVec Ideal S8192x128 .f32 := iblk m c 1 t
abbrev blk2 (c : Dev nD) (t : Fin cfg0.N) : FVec Ideal S8192x1 .f32 := iblk m c 2 t

/-- Row r of grid point t's blocks, as a row of the arrays. -/
def rowAt (t : Fin cfg0.N) (r : Fin 8192) : Fin 1048576 :=
  ⟨t.val * 8192 + r.val, by have := t.isLt; have : cfg0.N = 128 := N_0; have := r.isLt; omega⟩

/-- The three row windows sit at block index t along the rows and 0 along the lanes; the step number is t % 64. -/
theorem idx_facts : ∀ t : Fin cfg0.N,
    win0_0.index t 0 = t.val ∧ win0_0.index t 1 = 0 ∧ win0_1.index t 0 = t.val ∧ win0_1.index t 1 = 0
      ∧ win0_2.index t 0 = t.val ∧ win0_2.index t 1 = 0 ∧ (grid0.coords t 1).val = t.val % 64 ∧ (grid0.coords t 0).val = t.val / 64 :=
  (by decide +kernel : ∀ t : Fin grid0.N, _)

theorem blk0_apply (c : Dev nD) (t : Fin cfg0.N) (r : Fin 8192) (k : Fin 128) :
    blk0 m c t (ix2 r k) = arr0 m c (ix2 (rowAt t r) k) := by
  unfold blk0 iblk
  rw [View.read_apply]
  show V m c main_arg0 _ = _
  rw [V_main_arg0]
  show m ((c : Thread nD τ).loc main_arg0) _ = m ((c : Thread nD τ).loc main_arg0) _
  congr 1
  funext a
  apply Fin.ext
  match a with
  | ⟨0, _⟩ => show win0_0.index t 0 * 8192 + 1 * r.val = t.val * 8192 + r.val; rw [(idx_facts t).1]; omega
  | ⟨1, _⟩ => show win0_0.index t 1 * 128 + 1 * k.val = k.val; rw [(idx_facts t).2.1]; omega

theorem blk1_apply (c : Dev nD) (t : Fin cfg0.N) (r : Fin 8192) (k : Fin 128) :
    blk1 m c t (ix2 r k) = arr1 m c (ix2 (rowAt t r) k) := by
  unfold blk1 iblk
  rw [View.read_apply]
  show V m c main_arg1 _ = _
  rw [V_main_arg1]
  show m ((c : Thread nD τ).loc main_arg1) _ = m ((c : Thread nD τ).loc main_arg1) _
  congr 1
  funext a
  apply Fin.ext
  match a with
  | ⟨0, _⟩ => show win0_1.index t 0 * 8192 + 1 * r.val = t.val * 8192 + r.val; rw [(idx_facts t).2.2.1]; omega
  | ⟨1, _⟩ => show win0_1.index t 1 * 128 + 1 * k.val = k.val; rw [(idx_facts t).2.2.2.1]; omega

/-- The score column the call is handed: the score array viewed [1048576, 1] by the host. -/
theorem score_view (c : Dev nD) :
    (V m c main_v0 : S1048576x1.Idx → EReal) = shapeCast S1048576x1 (arr2 m c) shapeCasts_S1048576_S1048576x1 := by
  show StableHlo.after hostOps0 (fun b => m (c, b)) (Proc.devRef .tc main_v0) = _
  after_results
  try rfl

theorem blk2_apply (c : Dev nD) (t : Fin cfg0.N) (r : Fin 8192) :
    blk2 m c t (ix2 r 0) = arr2 m c (ix1 (rowAt t r)) := by
  unfold blk2 iblk
  rw [View.read_apply]
  show V m c main_v0 _ = _
  rw [score_view]
  refine shapeCast_apply _ _ _ (ix1 (rowAt t r)) ?_
  rw [Shape.rowMajor_val_one, Shape.rowMajor_val_two]
  show t.val * 8192 + r.val = (win0_2.index t 0 * 8192 + 1 * r.val) * 1 + (win0_2.index t 1 * 1 + 1 * 0)
  rw [(idx_facts t).2.2.2.2.1, (idx_facts t).2.2.2.2.2.1]
  omega

/-- Row r of point t's blocks contributes what row t·8192 + r of the arrays contributes. -/
theorem berr_apply (c : Dev nD) (t : Fin cfg0.N) (r : Fin 8192) :
    berr (blk0 m c t) (blk1 m c t) (blk2 m c t) r = err (arr0 m c) (arr1 m c) (arr2 m c) (rowAt t r) := by
  unfold berr err tdist bit bsumsq sumsq
  rw [blk2_apply]
  simp only [blk0_apply, blk1_apply]

/-- The block sum at point t. -/
def pointSum (c : Dev nD) (t : Fin cfg0.N) : EReal := bsum (blk0 m c t) (blk1 m c t) (blk2 m c t)

theorem pointSum_eq (c : Dev nD) (t : Fin cfg0.N) :
    pointSum m c t = ∑ r : Fin 8192, err (arr0 m c) (arr1 m c) (arr2 m c) (rowAt t r) := by
  unfold pointSum bsum
  exact Finset.sum_congr rfl fun r _ => berr_apply m c t r

end Cert.KernelIdeal.Blocks

end
-- ==== Proof.KernelAcc.lean ====
/-
  The accumulator row, point by point.

  Write a grid point as t = 64·core + step. After the point, lane l of the accumulator row holds the block sum of
  point 64·core + l for every l ≤ step and zero for every later lane: the core's first step starts from the zero
  row, every step adds its block sum into the lane that carries its own number and nothing into the others, and no
  step touches a lane twice. By induction on the point.
-/
import proofs.«406493_j19825569038543_3_alg».proof.Proof.KernelPieces
import proofs.«406493_j19825569038543_3_alg».proof.Proof.KernelBlocks

noncomputable section

open Idealize.ShloMosaic Idealize.ShloMosaic.TcCoe Idealize.SL.Sem Idealize.ShloMosaic.ValueIdx
open Cert.RowSpec Cert.RowLaw
open scoped BigOperators

namespace Cert.KernelIdeal.Acc

open Cert.KernelIdeal Cert.KernelIdeal.Gen Cert.KernelIdeal.Payload Cert.KernelIdeal.Pieces Cert.KernelIdeal.Blocks

variable (m : (ℓ : Loc nD τ sig) → Buf (Elt Ideal) ℓ)

/-- The one-hot factor is one at the lane whose number is the step's and zero at every other lane. -/
theorem hot_eq (l : Fin 128) (k : Nat) (hk : k < 64) : hot l k = if l.val = k then 1 else 0 := by
  unfold hot IntOp.cmpi
  by_cases h : l.val = k
  · rw [if_pos h, h]
    simp [Scalar.select]
  · rw [if_neg h]
    have hne : (BitVec.ofNat 32 l.val == BitVec.ofNat 32 k) = false := by
      rw [beq_eq_false_iff_ne]
      intro e
      have e' := congrArg BitVec.toNat e
      simp only [BitVec.toNat_ofNat] at e'
      have := l.isLt
      omega
    rw [hne]
    rfl

/-- The row a core's first step starts from is zero at every lane. -/
theorem zeroRow_apply (l : Fin 128) : k0_pay3 (F := Ideal) (ix2 0 l) = 0 := by
  have e : k0_pay3 (F := Ideal) = broadcast S1x128 (FloatOps.ofBits (F := Ideal) .f32 0x00000000#32) := shapeCast_self _ _
  rw [e]
  exact Ideal.ofBits_zero_f32

/-- The accumulator row after point n. -/
abbrev rowAfter (c : Dev nD) (n : Nat) (h : n < cfg0.N) : FVec Ideal S1x128 .f32 := (outsAt0 m c n h).2

/-- A core's first step: zero plus the one-hot factor times the point's block sum. -/
theorem row_first (c : Dev nD) (t : Fin cfg0.N) (h0 : t.val % 64 = 0) (l : Fin 128) :
    rowAfter m c t.val t.isLt (ix2 0 l) = 0 + hot l (t.val % 64) * pointSum m c t := by
  have h1 : ¬t.val % 64 = 63 := by omega
  unfold rowAfter
  rw [outsAt0_A m c t h0 h1]
  dsimp only
  refine (congrFun (scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h))
    (blk0 m c t) (blk1 m c t) (blk2 m c t)) (ix2 0 l)).trans ?_
  refine (stepRow_apply (grid0.coords t) (blk0 m c t) (blk1 m c t) (blk2 m c t) k0_pay3 l).trans ?_
  rw [zeroRow_apply, (idx_facts t).2.2.2.2.2.2.1]
  rfl

/-- Any later step: the row the point before left plus the one-hot factor times the point's block sum. -/
theorem row_next (c : Dev nD) (t : Fin cfg0.N) (h0 : ¬t.val % 64 = 0) (l : Fin 128) :
    rowAfter m c t.val t.isLt (ix2 0 l)
      = rowAfter m c (t.val - 1) (Nat.lt_of_le_of_lt (Nat.sub_le _ _) t.isLt) (ix2 0 l) + hot l (t.val % 64) * pointSum m c t := by
  unfold rowAfter
  by_cases h1 : t.val % 64 = 63
  · rw [outsAt0_C m c t h0 h1]
    dsimp only
    refine (congrFun (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
      (blk0 m c t) (blk1 m c t) (blk2 m c t) (outsAt0 m c (t.val - 1) (Nat.lt_of_le_of_lt (Nat.sub_le _ _) t.isLt)).2) (ix2 0 l)).trans ?_
    refine (stepRow_apply (grid0.coords t) (blk0 m c t) (blk1 m c t) (blk2 m c t) _ l).trans ?_
    rw [(idx_facts t).2.2.2.2.2.2.1]
    rfl
  · rw [outsAt0_B m c t h0 h1]
    dsimp only
    refine (congrFun (scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h))
      (blk0 m c t) (blk1 m c t) (blk2 m c t) (outsAt0 m c (t.val - 1) (Nat.lt_of_le_of_lt (Nat.sub_le _ _) t.isLt)).2) (ix2 0 l)).trans ?_
    refine (stepRow_apply (grid0.coords t) (blk0 m c t) (blk1 m c t) (blk2 m c t) _ l).trans ?_
    rw [(idx_facts t).2.2.2.2.2.2.1]
    rfl

/-- Point p's block sum, zero past the grid. -/
def P (c : Dev nD) (p : Nat) : EReal := if h : p < cfg0.N then pointSum m c ⟨p, h⟩ else 0

theorem P_of_lt (c : Dev nD) (t : Fin cfg0.N) : P m c t.val = pointSum m c t := by
  unfold P; rw [dif_pos t.isLt]

/-- THE ROW AFTER POINT n: lane l holds the block sum of point 64·(n / 64) + l for l ≤ n % 64, zero for later lanes. -/
theorem row_eq (c : Dev nD) : ∀ (n : Nat) (h : n < cfg0.N) (l : Fin 128),
    rowAfter m c n h (ix2 0 l) = if l.val ≤ n % 64 then P m c (n / 64 * 64 + l.val) else 0 := by
  intro n
  induction n with
  | zero =>
    intro h l
    rw [row_first m c ⟨0, h⟩ rfl l, zero_add, hot_eq l _ (by omega)]
    by_cases hl : l.val = 0
    · rw [if_pos (by simpa using hl), if_pos (by simp [hl]), one_mul, ← P_of_lt]
      simp [hl]
    · rw [if_neg (by simpa using hl), if_neg (by simp; omega), zero_mul]
  | succ n ih =>
    intro h l
    have hN : cfg0.N = 128 := N_0
    by_cases h0 : (n + 1) % 64 = 0
    · rw [row_first m c ⟨n + 1, h⟩ h0 l, zero_add, hot_eq l _ (by omega)]
      show (if l.val = (n + 1) % 64 then (1 : EReal) else 0) * pointSum m c ⟨n + 1, h⟩ = _
      by_cases hl : l.val = (n + 1) % 64
      · rw [if_pos hl, if_pos (by omega), one_mul, ← P_of_lt]
        congr 1
        show n + 1 = (n + 1) / 64 * 64 + l.val
        omega
      · rw [if_neg hl, if_neg (by omega), zero_mul]
    · rw [row_next m c ⟨n + 1, h⟩ h0 l, hot_eq l _ (by omega)]
      show rowAfter m c n _ (ix2 0 l) + (if l.val = (n + 1) % 64 then (1 : EReal) else 0) * pointSum m c ⟨n + 1, h⟩ = _
      rw [ih (by omega) l]
      have e1 : (n + 1) / 64 = n / 64 := by omega
      have e2 : (n + 1) % 64 = n % 64 + 1 := by omega
      by_cases hl : l.val = (n + 1) % 64
      · rw [if_pos hl, if_neg (by omega), if_pos (by omega), one_mul, zero_add, ← P_of_lt]
        congr 1
        show n + 1 = (n + 1) / 64 * 64 + l.val
        omega
      · rw [if_neg hl, zero_mul, add_zero, e1]
        by_cases hle : l.val ≤ n % 64
        · rw [if_pos hle, if_pos (by omega)]
        · rw [if_neg hle, if_neg (by omega)]

end Cert.KernelIdeal.Acc

end
-- ==== Proof.KernelFinal.lean ====
/-
  From the accumulator row to the kernel's result.

  At a core's last step (t % 64 = 63) lanes 0 … 63 of the row hold the core's 64 block sums and lanes 64 … 127 hold
  zero, so the row's lane sum is the core's total; the step stores it in lane 0 of the core's output block and zero
  in the other lanes, and that block is written back to row (core, 0, ·) of the [2, 1, 128] result of the call. Those
  are the only two write-backs and they cover the array, so the call leaves outArr. The host then takes lane 0 of
  each core's row and adds the two from zero: the sum over all rows.
-/
import proofs.«406493_j19825569038543_3_alg».proof.Proof.KernelAcc
import Idealize.ShloMosaic.Lib.StableHlo.Run

noncomputable section

open Idealize.ShloMosaic Idealize.ShloMosaic.TcCoe Idealize.SL.Sem Idealize.ShloMosaic.ValueIdx
open Idealize.ShloMosaic.Pipeline (Dat)
open Cert.RowSpec Cert.RowLaw
open scoped BigOperators

namespace Cert.KernelIdeal.Final

open Cert.KernelIdeal Cert.KernelIdeal.Gen Cert.KernelIdeal.Payload Cert.KernelIdeal.Pieces Cert.KernelIdeal.Blocks Cert.KernelIdeal.Acc

variable (m : (ℓ : Loc nD τ sig) → Buf (Elt Ideal) ℓ) (ρ : Dev nD → PrngReg)

/-- The per-core rows the call leaves, as contents of its result array. -/
abbrev outG (c : Dev nD) : Buf (Elt Ideal) ((c : Thread nD τ).loc main_v1) := outArr (arr0 m c) (arr1 m c) (arr2 m c)

/-- Point 64·q + j's block sum is the specification's block sum of (core q, step j). -/
theorem P_block (c : Dev nD) (q : Fin 2) (j : Fin 64) :
    P m c (q.val * 64 + j.val) = blockSum (arr0 m c) (arr1 m c) (arr2 m c) q j := by
  have hN : cfg0.N = 128 := N_0
  have hlt : q.val * 64 + j.val < cfg0.N := by have := q.isLt; have := j.isLt; omega
  rw [show P m c (q.val * 64 + j.val) = pointSum m c ⟨_, hlt⟩ from P_of_lt m c ⟨_, hlt⟩, pointSum_eq]
  rfl

/-- At a core's last step the row's lane sum is the core's total. -/
theorem lanes_total (c : Dev nD) (t : Fin cfg0.N) (h63 : t.val % 64 = 63) (q : Fin 2) (hq : q.val = t.val / 64) :
    ∑ j : Fin 128, rowAfter m c t.val t.isLt (ix2 0 j) = coreTotal (arr0 m c) (arr1 m c) (arr2 m c) q := by
  rw [sum_lanes _ (fun l hl => by rw [row_eq, if_neg (by omega)])]
  unfold coreTotal
  refine Finset.sum_congr rfl fun j _ => ?_
  rw [row_eq, if_pos (by have := j.isLt; show j.val ≤ _; omega), ← hq]
  exact P_block m c q j

/-- The output window sits at block (core, 0, 0). -/
theorem out_idx : ∀ t : Fin cfg0.N, win0_3.index t 0 = t.val / 64 ∧ win0_3.index t 1 = 0 ∧ win0_3.index t 2 = 0 :=
  (by decide +kernel : ∀ t : Fin grid0.N, _)

/-- WHAT A CORE'S LAST STEP WRITES BACK is its block of the per-core rows. -/
theorem flushed_eq (c : Dev nD) (t : Fin cfg0.N) (hf : (cfg0.win 3).flush t = true) :
    (dats m 0 c).flushed 3 t = ((cfg0.win 3).blk t).view.read (Elt Ideal) (outG m c) := by
  have hN : cfg0.N = 128 := N_0
  have h63 : t.val % 64 = 63 := (flush0_3 t).mp hf
  have h0 : ¬t.val % 64 = 0 := by omega
  have hq : t.val / 64 < 2 := by have := t.isLt; omega
  show (cfg0.win 3).cut (grid0.coords t) ((dats m 0 c).after 3 t) = _
  rw [after0_3, outsAt0_C m c t h0 h63]
  dsimp only
  funext y
  obtain ⟨l, rfl⟩ : ∃ l : Fin 128, y = ix3 (0 : Fin 1) (0 : Fin 1) l :=
    ⟨y 2, funext fun a => by
      match a with
      | ⟨0, _⟩ => exact Fin.ext (by have h : (y 0).val < 1 := (y 0).isLt; show (y 0).val = 0; omega)
      | ⟨1, _⟩ => exact Fin.ext (by have h : (y 1).val < 1 := (y 1).isLt; show (y 1).val = 0; omega)
      | ⟨2, _⟩ => rfl⟩
  refine (congrFun (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h63)
    (blk0 m c t) (blk1 m c t) (blk2 m c t) (outsAt0 m c (t.val - 1) (Nat.lt_of_le_of_lt (Nat.sub_le _ _) t.isLt)).2) (ix3 0 0 l)).trans ?_
  refine (outRow_apply _ l).trans ?_
  have hrow : stepRow (grid0.coords t) (blk0 m c t) (blk1 m c t) (blk2 m c t)
      (outsAt0 m c (t.val - 1) (Nat.lt_of_le_of_lt (Nat.sub_le _ _) t.isLt)).2 = rowAfter m c t.val t.isLt := by
    unfold rowAfter
    rw [outsAt0_C m c t h0 h63]
    dsimp only
    exact (scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h63)
      (blk0 m c t) (blk1 m c t) (blk2 m c t) (outsAt0 m c (t.val - 1) (Nat.lt_of_le_of_lt (Nat.sub_le _ _) t.isLt)).2).symm
  rw [hrow, lanes_total m c t h63 ⟨t.val / 64, hq⟩ rfl, View.read_apply]
  show _ = outArr (arr0 m c) (arr1 m c) (arr2 m c) _
  unfold outArr
  have e2 : ((((cfg0.win 3).blk t).view.emb (ix3 (0 : Fin 1) (0 : Fin 1) l)) 2).val = l.val := by
    show win0_3.index t 2 * 128 + 1 * l.val = l.val
    rw [(out_idx t).2.2]; omega
  have e0 : (((cfg0.win 3).blk t).view.emb (ix3 (0 : Fin 1) (0 : Fin 1) l)) 0 = ⟨t.val / 64, hq⟩ := by
    apply Fin.ext
    show win0_3.index t 0 * 1 + 1 * 0 = t.val / 64
    rw [(out_idx t).1]; omega
  rw [e2, e0]
  rfl

/-- An index of the result array is in point t's block iff each coordinate is in the block's range. -/
theorem mem_blk (t : Fin cfg0.N) (i : S2x1x128.Idx) :
    i ∈ ((cfg0.win 3).blk t).view.set
      ↔ ∀ a : Fin 3, win0_3.index t a * S1x1x128.size a ≤ (i a).val ∧ (i a).val < win0_3.index t a * S1x1x128.size a + S1x1x128.size a := by
  show i ∈ ((View.whole main_v1).slice (win0_3.rect t)).set ↔ _
  rw [View.set_slice_whole, Rect.mem_set_unit]
  exact Iff.rfl

/-- THE CALL'S RESULT ARRAY: the per-core rows (core q's row is written back at point 64·q + 63). -/
theorem final (c : Dev nD) : (dats m 0 c).arrAt 3 cfg0.N = outG m c :=
  (dats m 0 c).arrAt_eq_of_cover 3 (outG m c) (flushed_eq m c) fun i => by
    have hN : cfg0.N = 128 := N_0
    have hN' : grid0.N = 128 := N_0
    have hi0 : (i 0).val < 2 := (i 0).isLt
    have hi1 : (i 1).val < 1 := (i 1).isLt
    have hi2 : (i 2).val < 128 := (i 2).isLt
    refine ⟨⟨(i 0).val * 64 + 63, by omega⟩, (flush0_3 _).mpr (by show ((i 0).val * 64 + 63) % 64 = 63; omega), ?_⟩
    rw [mem_blk]
    obtain ⟨f0, f1, f2⟩ := out_idx ⟨(i 0).val * 64 + 63, by omega⟩
    have f0' : win0_3.index ⟨(i 0).val * 64 + 63, by omega⟩ 0 = (i 0).val := by rw [f0]; show ((i 0).val * 64 + 63) / 64 = _; omega
    intro a
    match a with
    | ⟨0, _⟩ => show win0_3.index _ 0 * 1 ≤ (i 0).val ∧ (i 0).val < win0_3.index _ 0 * 1 + 1; rw [f0']; omega
    | ⟨1, _⟩ => show win0_3.index _ 1 * 1 ≤ (i 1).val ∧ (i 1).val < win0_3.index _ 1 * 1 + 1; rw [f1]; omega
    | ⟨2, _⟩ => show win0_3.index _ 2 * 128 ≤ (i 2).val ∧ (i 2).val < win0_3.index _ 2 * 128 + 128; rw [f2]; omega

/-- The host's lines after the call: lane 0 of each core's row, the two viewed as a pair, added from zero. -/
def tail (x : FVec Ideal S2x1x128 .f32) : FVec Ideal S_ .f32 :=
  Host.reduceAdd (shapeCast S2 (extractStridedSlice S2x1x1 ![0, 0, 0] x slices_S2x1x128_S2x1x1_0_0_0) shapeCasts_S2x1x1_S2)
    (constant (F := Ideal) S_ .f32 0x00000000#32) reducesTo_S2_S_d0 h_S_

/-- Read at its one index: the sum of the two cores' lane 0. -/
theorem tail_apply (x : FVec Ideal S2x1x128 .f32) (i : S_.Idx) : tail x i = ∑ q : Fin 2, x (ix3 q 0 0) := by
  unfold tail
  simp only [Host.reduceAdd, Ideal.hostReduceAdd_def]
  rw [Ideal.hostReduceAdd_total reducesTo_S2_S_d0 (fun b => b.elim0), sum_idx1]
  show Ideal.ofBits .f32 0x00000000#32 + _ = _
  rw [Ideal.ofBits_zero_f32, zero_add]
  refine Finset.sum_congr rfl fun q _ => ?_
  rw [shapeCast_apply _ _ (ix1 q) (ix3 q (0 : Fin 1) (0 : Fin 1)) (by rw [Shape.rowMajor_val_one, Shape.rowMajor_val_three]; simp)]
  unfold extractStridedSlice
  refine congrArg x (funext fun a => Fin.ext ?_)
  match a with
  | ⟨0, _⟩ => show 0 + q.val = q.val; omega
  | ⟨1, _⟩ => rfl
  | ⟨2, _⟩ => rfl

/-- THE KERNEL'S RESULT: the sum of err over all rows. -/
theorem tail_out (c : Dev nD) (i : S_.Idx) : tail (outG m c) i = total (arr0 m c) (arr1 m c) (arr2 m c) := by
  rw [tail_apply, total_eq]
  refine Finset.sum_congr rfl fun q _ => ?_
  show outArr _ _ _ (ix3 q 0 0) = _
  unfold outArr
  exact if_pos rfl

/-- What the program's result buffer holds after the host's last lines. -/
theorem result_eq (c : Dev nD) :
    Pipeline.afterTail₀ cfgs (dats m) 0 (V0 m) [hostOps1] c main_v4 = tail (outG m c) := by
  unfold Pipeline.afterTail₀
  show StableHlo.after hostOps1 _ (Proc.devRef .tc main_v4) = _
  after_results
  exact congrArg tail ((Pipeline.withArrays_arr spec0 launch0.win.arr_inj c _ _ 3).trans (final m c))

/-- THE RUN, READ: every weakly fair execution of the kernel's program ends with the result at the total and the
    three arguments unchanged. -/
theorem run : θ_run defs (onTc (τ := τ) (main (F := Ideal))) ⟨m, fun _ => 0, ρ⟩ fun r => ∀ c : Dev nD,
      r.2.mem ((c.tc : Thread nD τ).loc main_v4) = (fun _ => total (arr0 m c) (arr1 m c) (arr2 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨(((h c).2 main_v4 (Pipeline.mem_restRefs_of main_v4 (by decide) (by decide))).trans (result_eq m c)).trans
        (funext fun i => tail_out m c i),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.RefValue.lean ====
/-
  The reference's value. Its run ends with the result at the composed term of its 24 host operations; read one
  operation at a time at an index, that term at row R is the clipped form  score[R] ≥ c ? max (1 - t) 0 : max (1 + t) 0
  with t = tanh √(0 + Σₖ (S1[R,k] - S2[R,k])²), which the per-row law turns into err R; and the last operation adds
  the rows up from zero. So the reference's result is the specification's total.
-/
import proofs.«406493_j19825569038543_3_alg».proof.Proof.Gen.ReferenceIdeal.Run
import proofs.«406493_j19825569038543_3_alg».proof.Proof.Gen.ReferenceIdeal.Read
import proofs.«406493_j19825569038543_3_alg».proof.Proof.RowSpec

noncomputable section

namespace Cert.ReferenceIdeal.RefValue

open Cert.ReferenceIdeal Cert.ReferenceIdeal.Read Idealize.ShloMosaic Idealize.ShloMosaic.ValueIdx Cert.RowSpec
open scoped BigOperators

/-- The row sum's operand index at (R, k) is the array index (R, k). -/
theorem idx_v2 (R : Fin 1048576) (k : Fin 128) : idx_main_v2 (ix1 R) k = ix2 R k :=
  funext fun a => by match a with | ⟨0, _⟩ => rfl | ⟨1, _⟩ => rfl

/-- The reference's squared distance of row R: zero plus the specification's sum. -/
theorem sumsq_apply (x0 x1 : Mat) (R : Fin 1048576) : val_main_v2 (F := Ideal) x0 x1 (ix1 R) = sumsq x0 x1 R := by
  rw [val_main_v2_apply, val_main_cst_apply, Ideal.ofBits_def, Ideal.ofBits_zero_f32, zero_add]
  unfold sumsq
  refine Finset.sum_congr rfl fun k _ => ?_
  rw [idx_v2, val_main_v1_apply, val_main_v0_apply]
  rfl

/-- The reference's tanh of the distance of row R. -/
theorem tdist_apply (x0 x1 : Mat) (R : Fin 1048576) : val_main_v4 (F := Ideal) x0 x1 (ix1 R) = tdist x0 x1 R := by
  rw [val_main_v4_apply, val_main_v3_apply, sumsq_apply]
  rfl

/-- The selected row value is err R. -/
theorem row_apply (x0 x1 : Mat) (x2 : Col) (R : Fin 1048576) :
    val_main_v13 (F := Ideal) x0 x1 x2 (ix1 R) = err x0 x1 x2 R := by
  rw [err_eq_clipped, val_main_v13_apply, val_main_v12_apply, val_main_v7_apply, val_main_v10_apply, val_main_v6_apply,
    val_main_v9_apply, tdist_apply, val_main_v5_apply, val_main_v8_apply, val_main_v11_apply, val_main_call0_v0_apply,
    val_main_call1_v0_apply, val_main_cst_0_apply, val_main_cst_1_apply, val_main_cst_2_apply, val_main_call0_cst_apply,
    val_main_call1_cst_apply]
  simp only [Ideal.ofBits_def, Ideal.ofBits_zero_f32, Ideal.ofBits_one_f32, Ideal.subf_def, Ideal.addf_def,
    Ideal.maximumf_def, Ideal.cmpf_def]
  rfl

/-- THE REFERENCE'S RESULT is the sum of err over all rows. -/
theorem result_apply (x0 x1 : Mat) (x2 : Col) (i : S_.Idx) : val_main_v14 (F := Ideal) x0 x1 x2 i = total x0 x1 x2 := by
  rw [val_main_v14_apply, val_main_cst_3_apply, Ideal.ofBits_def, Ideal.ofBits_zero_f32, zero_add]
  unfold total
  rw [sum_idx1]
  exact Finset.sum_congr rfl fun R _ => row_apply x0 x1 x2 R

end Cert.ReferenceIdeal.RefValue

end
-- ==== Proof.lean ====
/-
  The kernel and its reference agree over the extended reals.

  Both compute  Σ_R  e(R)  over the 1048576 rows, where with t(R) = tanh √(Σₖ (S1[R,k] - S2[R,k])²) the reference takes
  e(R) = max (1 - t) 0 where score[R] ≥ c and max (1 + t) 0 elsewhere, and the kernel takes e(R) = 1 + s·t with
  s = -1 where score[R] ≥ c and 1 elsewhere (c the same f32 word on both sides). tanh of any extended real is a real
  in [-1, 1], so 1 - t and 1 + t are never negative, the clip never bites, and the two forms are one number row by row
  (Proof/RowLaw.lean). The reference adds the rows up in one host sum (Proof/RefValue.lean). The kernel adds them in
  three levels: 8192 rows a grid step, each step's sum put into its own lane of a 128-lane accumulator by a one-hot
  factor (64 steps a core: Proof/KernelAcc.lean), the lanes summed at a core's last step into lane 0 of the core's row
  of the call's result, and the two cores' lane 0 added by the host (Proof/KernelFinal.lean). Sums of extended reals
  commute and associate, 0·x = 0 and 1·x = x hold at every extended real, so the regrouping is exact and the
  precondition (finite inputs) is never opened. The ideal pass rewrote nothing, so the kernel's idealization is
  the kernel's own text. The frames of the two kernel programs are the generated ones; the reference's is its
  generated run with the result dropped.
-/
import proofs.«406493_j19825569038543_3_alg».proof.Defs
import proofs.«406493_j19825569038543_3_alg».proof.Proof.Gen.Kernel
import proofs.«406493_j19825569038543_3_alg».proof.Proof.Gen.Kernel.Frame
import proofs.«406493_j19825569038543_3_alg».proof.Proof.Gen.KernelIdeal
import proofs.«406493_j19825569038543_3_alg».proof.Proof.Gen.KernelIdeal.Frame
import proofs.«406493_j19825569038543_3_alg».proof.Proof.Gen.ReferenceIdeal
import proofs.«406493_j19825569038543_3_alg».proof.Proof.Gen.ReferenceIdeal.Run
import proofs.«406493_j19825569038543_3_alg».proof.Proof.Gen.ReferenceIdeal.Read
import proofs.«406493_j19825569038543_3_alg».proof.Proof.Gen.Pre_finite_inputs
import proofs.«406493_j19825569038543_3_alg».proof.Proof.KernelFinal
import proofs.«406493_j19825569038543_3_alg».proof.Proof.RefValue
import Idealize.ShloMosaic.Adequacy
import Idealize.ShloMosaic.Init

noncomputable section

namespace Cert.Proof

open Idealize.ShloMosaic Idealize.SL.Sem

/-- The three programs run, fault nowhere and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Run from memories that agree on the three arguments, both idealized programs end with the result at the sum
    over all rows of the per-row contribution (the specification's total) of those arguments. -/
theorem algebraic : Cert.algebraic_KernelIdeal_ReferenceIdeal := by
  intro m ρ m' ρ' _ hagree
  refine ⟨fun c => fun _ => Cert.RowSpec.total (Cert.KernelIdeal.Blocks.arr0 m c) (Cert.KernelIdeal.Blocks.arr1 m c)
    (Cert.KernelIdeal.Blocks.arr2 m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2.1, (hagree c).2.2]
  exact funext fun i => Cert.ReferenceIdeal.RefValue.result_apply _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
